-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x512 : Shape := ⟨3, ![4096, 16, 512]⟩
abbrev S1536x512 : Shape := ⟨2, ![1536, 512]⟩
abbrev S512x512 : Shape := ⟨2, ![512, 512]⟩
abbrev S_ : Shape := ⟨0, ![]⟩

class Facts : Prop where
  bcast_S_S4096x16x512 : S_.BroadcastsInDim S4096x16x512 (![] : Fin 0 → Fin S4096x16x512.rank)
  reducesTo_S4096x16x512_S_d0_1_2 : S4096x16x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x16x512 .f32) (main_arg1 : FVec F S1536x512 .f32) (main_arg2 : FVec F S512x512 .f32) : IVec S_ 1 :=
  let main_v0 : FVec F S4096x16x512 .f32 := Host.absf main_arg0
  let main_cst : FVec F S_ .f32 := constant S_ .f32 0x7F800000#32
  let main_v1 : FVec F S4096x16x512 .f32 := broadcastInDim S4096x16x512 ![] bcast_S_S4096x16x512 main_cst
  let main_v2 : IVec S4096x16x512 1 := cmpf .olt main_v0 main_v1
  let main_c : IVec S_ 1 := constantI S_ 1 1#1
  let main_v3 : IVec S_ 1 := (fun x v => Host.reduce IntOp.andi x v reducesTo_S4096x16x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4096x16x512 : Shape := ⟨3, ![4096, 16, 512]⟩
abbrev S1536x512 : Shape := ⟨2, ![1536, 512]⟩
abbrev S512x512 : Shape := ⟨2, ![512, 512]⟩
abbrev S128x16x512 : Shape := ⟨3, ![128, 16, 512]⟩
abbrev S2048x512 : Shape := ⟨2, ![2048, 512]⟩
abbrev S128x16x64 : Shape := ⟨3, ![128, 16, 64]⟩
abbrev S128x16x16 : Shape := ⟨3, ![128, 16, 16]⟩
abbrev S128x16 : Shape := ⟨2, ![128, 16]⟩
abbrev S128x16x1 : Shape := ⟨3, ![128, 16, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x16x512, .f32⟩
  | .hbm, ⟨1, _⟩ => ⟨S1536x512, .f32⟩
  | .hbm, ⟨2, _⟩ => ⟨S512x512, .f32⟩
  | .hbm, ⟨3, _⟩ => ⟨S1536x512, .bf16⟩
  | .hbm, ⟨4, _⟩ => ⟨S512x512, .bf16⟩
  | .hbm, ⟨5, _⟩ => ⟨S4096x16x512, .f32⟩
  | .local _ .vmem, ⟨0, _⟩ => ⟨S128x16x512, .f32⟩
  | .local _ .vmem, ⟨1, _⟩ => ⟨S128x16x512, .f32⟩
  | .local _ .vmem, ⟨2, _⟩ => ⟨S1536x512, .bf16⟩
  | .local _ .vmem, ⟨3, _⟩ => ⟨S512x512, .bf16⟩
  | .local _ .vmem, ⟨4, _⟩ => ⟨S128x16x512, .f32⟩
  | .local _ .vmem, ⟨5, _⟩ => ⟨S128x16x512, .f32⟩
  | _, _ => ⟨S4096x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S128x16x512_S128x16x512_0_0_0 : ∀ a, (![0, 0, 0] : Fin 3 → Nat) a + S128x16x512.size a ≤ S128x16x512.size a
  h_S128x16x512 : 0 < S128x16x512.numel
  shapeCasts_S128x16x512_S2048x512 : S128x16x512.ShapeCasts S2048x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  slices_S1536x512_o0_0_S512x512 : S1536x512.Slices ![0, 0] S512x512
  slices_S1536x512_o512_0_S512x512 : S1536x512.Slices ![512, 0] S512x512
  slices_S1536x512_o1024_0_S512x512 : S1536x512.Slices ![1024, 0] S512x512
  transposes_S512x512_p1_0_S512x512 : S512x512.Transposes [1, 0] S512x512
  shapeCasts_S2048x512_S128x16x512 : S2048x512.ShapeCasts S128x16x512
  slices_S128x16x512_o0_0_0_S128x16x64 : S128x16x512.Slices ![0, 0, 0] S128x16x64
  reduces_S128x16x16_S128x16 : S128x16x16.Reduces [2] S128x16
  shapeCasts_S128x16_S128x16x1 : S128x16.ShapeCasts S128x16x1
  broadcasts_S128x16x1_S128x16x16 : S128x16x1.Broadcasts S128x16x16
  slices_S128x16x512_o0_0_64_S128x16x64 : S128x16x512.Slices ![0, 0, 64] S128x16x64
  slices_S128x16x512_o0_0_128_S128x16x64 : S128x16x512.Slices ![0, 0, 128] S128x16x64
  slices_S128x16x512_o0_0_192_S128x16x64 : S128x16x512.Slices ![0, 0, 192] S128x16x64
  slices_S128x16x512_o0_0_256_S128x16x64 : S128x16x512.Slices ![0, 0, 256] S128x16x64
  slices_S128x16x512_o0_0_320_S128x16x64 : S128x16x512.Slices ![0, 0, 320] S128x16x64
  slices_S128x16x512_o0_0_384_S128x16x64 : S128x16x512.Slices ![0, 0, 384] S128x16x64
  slices_S128x16x512_o0_0_448_S128x16x64 : S128x16x512.Slices ![0, 0, 448] S128x16x64
  concatenates_S128x16x64_S128x16x64_S128x16x64_S128x16x64_S128x16x64_S128x16x64_S128x16x64_S128x16x64_S128x16x512_d2 : Shape.Concatenates [S128x16x64, S128x16x64, S128x16x64, S128x16x64, S128x16x64, S128x16x64, S128x16x64, S128x16x64] S128x16x512 2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  dot_S128x16x64_S128x16x64_S128x16x16_2_2_1_1_0_0_wf : DotDims.WF S128x16x64 S128x16x64 S128x16x16 [2] [2] [1] [1] [0] [0]
  dot_S128x16x16_S128x16x64_S128x16x64_2_1_1_2_0_0_wf : DotDims.WF S128x16x16 S128x16x64 S128x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S4096x16x512.size a
  hwx0_0 : ∀ i : grid0.Coords, EltTy.bits .f32 = 32 ∨ (Rect.block (s := S4096x16x512) S128x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x512.size a ≤ S4096x16x512.size a
  hwx0_3 : ∀ i : grid0.Coords, EltTy.bits .f32 = 32 ∨ (Rect.block (s := S4096x16x512) S128x16x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S128x16x64_S128x16x64_S128x16x16_2_2_1_1_0_0 : DotDims S128x16x64 S128x16x64 S128x16x16 where
  lhsContracting := [2]
  rhsContracting := [2]
  lhsNonContracting := [1]
  rhsNonContracting := [1]
  lhsBatch := [0]
  rhsBatch := [0]
  wf := dot_S128x16x64_S128x16x64_S128x16x16_2_2_1_1_0_0_wf
def dot_S128x16x16_S128x16x64_S128x16x64_2_1_1_2_0_0 : DotDims S128x16x16 S128x16x64 S128x16x64 where
  lhsContracting := [2]
  rhsContracting := [1]
  lhsNonContracting := [1]
  rhsNonContracting := [2]
  lhsBatch := [0]
  rhsBatch := [0]
  wf := dot_S128x16x16_S128x16x64_S128x16x64_2_1_1_2_0_0_wf

abbrev win0_0 : Pipeline.Window sig grid0 :=
  Pipeline.Window.ofSpec (Memref.whole main_arg0) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16x512 : Shape := ⟨3, ![4096, 16, 512]⟩
abbrev S1536x512 : Shape := ⟨2, ![1536, 512]⟩
abbrev S512x512 : Shape := ⟨2, ![512, 512]⟩
abbrev S4096x16x1536 : Shape := ⟨3, ![4096, 16, 1536]⟩
abbrev S4096x16x3x8x64 : Shape := ⟨5, ![4096, 16, 3, 8, 64]⟩
abbrev S3x4096x8x16x64 : Shape := ⟨5, ![3, 4096, 8, 16, 64]⟩
abbrev S1x4096x8x16x64 : Shape := ⟨5, ![1, 4096, 8, 16, 64]⟩
abbrev S4096x8x16x64 : Shape := ⟨4, ![4096, 8, 16, 64]⟩
abbrev S4096x8x16x16 : Shape := ⟨4, ![4096, 8, 16, 16]⟩
abbrev S_ : Shape := ⟨0, ![]⟩
abbrev S4096x8x16 : Shape := ⟨3, ![4096, 8, 16]⟩
abbrev S4096x8x16x1 : Shape := ⟨4, ![4096, 8, 16, 1]⟩
abbrev S4096x16x8x64 : Shape := ⟨4, ![4096, 16, 8, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S1536x512, .f32⟩
  | .hbm, ⟨2, _⟩ => ⟨S512x512, .f32⟩
  | .hbm, ⟨3, _⟩ => ⟨S4096x16x1536, .f32⟩
  | .hbm, ⟨4, _⟩ => ⟨S4096x16x3x8x64, .f32⟩
  | .hbm, ⟨5, _⟩ => ⟨S3x4096x8x16x64, .f32⟩
  | .hbm, ⟨6, _⟩ => ⟨S1x4096x8x16x64, .f32⟩
  | .hbm, ⟨7, _⟩ => ⟨S4096x8x16x64, .f32⟩
  | .hbm, ⟨8, _⟩ => ⟨S1x4096x8x16x64, .f32⟩
  | .hbm, ⟨9, _⟩ => ⟨S4096x8x16x64, .f32⟩
  | .hbm, ⟨10, _⟩ => ⟨S1x4096x8x16x64, .f32⟩
  | .hbm, ⟨11, _⟩ => ⟨S4096x8x16x64, .f32⟩
  | .hbm, ⟨12, _⟩ => ⟨S4096x8x16x16, .f32⟩
  | .hbm, ⟨13, _⟩ => ⟨S_, .f32⟩
  | .hbm, ⟨14, _⟩ => ⟨S_, .f32⟩
  | .hbm, ⟨15, _⟩ => ⟨S4096x8x16x16, .f32⟩
  | .hbm, ⟨16, _⟩ => ⟨S4096x8x16x16, .f32⟩
  | .hbm, ⟨17, _⟩ => ⟨S_, .f32⟩
  | .hbm, ⟨18, _⟩ => ⟨S4096x8x16, .f32⟩
  | .hbm, ⟨19, _⟩ => ⟨S_, .f32⟩
  | .hbm, ⟨20, _⟩ => ⟨S4096x8x16, .f32⟩
  | .hbm, ⟨21, _⟩ => ⟨S4096x8x16, .f32⟩
  | .hbm, ⟨22, _⟩ => ⟨S4096x8x16x1, .f32⟩
  | .hbm, ⟨23, _⟩ => ⟨S4096x8x16x16, .f32⟩
  | .hbm, ⟨24, _⟩ => ⟨S4096x8x16x16, .f32⟩
  | .hbm, ⟨25, _⟩ => ⟨S4096x8x16x16, .f32⟩
  | .hbm, ⟨26, _⟩ => ⟨S_, .f32⟩
  | .hbm, ⟨27, _⟩ => ⟨S4096x8x16, .f32⟩
  | .hbm, ⟨28, _⟩ => ⟨S4096x8x16x1, .f32⟩
  | .hbm, ⟨29, _⟩ => ⟨S4096x8x16x16, .f32⟩
  | .hbm, ⟨30, _⟩ => ⟨S4096x8x16x16, .f32⟩
  | .hbm, ⟨31, _⟩ => ⟨S4096x8x16x64, .f32⟩
  | .hbm, ⟨32, _⟩ => ⟨S4096x16x8x64, .f32⟩
  | .hbm, ⟨33, _⟩ => ⟨S4096x16x512, .f32⟩
  | .hbm, ⟨34, _⟩ => ⟨S4096x16x512, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S4096x16x1536_S4096x16x3x8x64 : S4096x16x1536.ShapeCasts S4096x16x3x8x64
  transposes_S4096x16x3x8x64_S3x4096x8x16x64_2_0_3_1_4 : S4096x16x3x8x64.Transposes [2, 0, 3, 1, 4] S3x4096x8x16x64
  slices_S3x4096x8x16x64_S1x4096x8x16x64_0_0_0_0_0 : S3x4096x8x16x64.Slices ![0, 0, 0, 0, 0] S1x4096x8x16x64
  shapeCasts_S1x4096x8x16x64_S4096x8x16x64 : S1x4096x8x16x64.ShapeCasts S4096x8x16x64
  slices_S3x4096x8x16x64_S1x4096x8x16x64_1_0_0_0_0 : S3x4096x8x16x64.Slices ![1, 0, 0, 0, 0] S1x4096x8x16x64
  slices_S3x4096x8x16x64_S1x4096x8x16x64_2_0_0_0_0 : S3x4096x8x16x64.Slices ![2, 0, 0, 0, 0] S1x4096x8x16x64
  bcast_S_S4096x8x16x16 : S_.BroadcastsInDim S4096x8x16x16 (![] : Fin 0 → Fin S4096x8x16x16.rank)
  reducesTo_S4096x8x16x16_S4096x8x16_d3 : S4096x8x16x16.ReducesTo [3] S4096x8x16
  h_S_ : 0 < S_.numel
  bcast_S_S4096x8x16 : S_.BroadcastsInDim S4096x8x16 (![] : Fin 0 → Fin S4096x8x16.rank)
  bcast_S4096x8x16_S4096x8x16x1_0_1_2 : S4096x8x16.BroadcastsInDim S4096x8x16x1 (![0, 1, 2] : Fin 3 → Fin S4096x8x16x1.rank)
  bcast_S4096x8x16x1_S4096x8x16x16_0_1_2_3 : S4096x8x16x1.BroadcastsInDim S4096x8x16x16 (![0, 1, 2, 3] : Fin 4 → Fin S4096x8x16x16.rank)
  transposes_S4096x8x16x64_S4096x16x8x64_0_2_1_3 : S4096x8x16x64.Transposes [0, 2, 1, 3] S4096x16x8x64
  shapeCasts_S4096x16x8x64_S4096x16x512 : S4096x16x8x64.ShapeCasts S4096x16x512
  dot_S4096x16x512_S1536x512_S4096x16x1536_2_1_01_0_n_n_wf : DotDims.WF S4096x16x512 S1536x512 S4096x16x1536 [2] [1] [0, 1] [0] [] []
  dot_S4096x8x16x64_S4096x8x16x64_S4096x8x16x16_3_3_2_2_01_01_wf : DotDims.WF S4096x8x16x64 S4096x8x16x64 S4096x8x16x16 [3] [3] [2] [2] [0, 1] [0, 1]
  dot_S4096x8x16x16_S4096x8x16x64_S4096x8x16x64_3_2_2_3_01_01_wf : DotDims.WF S4096x8x16x16 S4096x8x16x64 S4096x8x16x64 [3] [2] [2] [3] [0, 1] [0, 1]
  dot_S4096x16x512_S512x512_S4096x16x512_2_1_01_0_n_n_wf : DotDims.WF S4096x16x512 S512x512 S4096x16x512 [2] [1] [0, 1] [0] [] []

variable [Facts₀]

def dot_S4096x16x512_S1536x512_S4096x16x1536_2_1_01_0_n_n : DotDims S4096x16x512 S1536x512 S4096x16x1536 where
  lhsContracting := [2]
  rhsContracting := [1]
  lhsNonContracting := [0, 1]
  rhsNonContracting := [0]
  lhsBatch := []
  rhsBatch := []
  wf := dot_S4096x16x512_S1536x512_S4096x16x1536_2_1_01_0_n_n_wf
def dot_S4096x8x16x64_S4096x8x16x64_S4096x8x16x16_3_3_2_2_01_01 : DotDims S4096x8x16x64 S4096x8x16x64 S4096x8x16x16 where
  lhsContracting := [3]
  rhsContracting := [3]
  lhsNonContracting := [2]
  rhsNonContracting := [2]
  lhsBatch := [0, 1]
  rhsBatch := [0, 1]
  wf := dot_S4096x8x16x64_S4096x8x16x64_S4096x8x16x16_3_3_2_2_01_01_wf
def dot_S4096x8x16x16_S4096x8x16x64_S4096x8x16x64_3_2_2_3_01_01 : DotDims S4096x8x16x16 S4096x8x16x64 S4096x8x16x64 where
  lhsContracting := [3]
  rhsContracting := [2]
  lhsNonContracting := [2]
  rhsNonContracting := [3]
  lhsBatch := [0, 1]
  rhsBatch := [0, 1]
  wf := dot_S4096x8x16x16_S4096x8x16x64_S4096x8x16x64_3_2_2_3_01_01_wf
def dot_S4096x16x512_S512x512_S4096x16x512_2_1_01_0_n_n : DotDims S4096x16x512 S512x512 S4096x16x512 where
  lhsContracting := [2]
  rhsContracting := [1]
  lhsNonContracting := [0, 1]
  rhsNonContracting := [0]
  lhsBatch := []
  rhsBatch := []
  wf := dot_S4096x16x512_S512x512_S4096x16x512_2_1_01_0_n_n_wf

class Facts : Prop extends Facts₀ where

variable [Facts]
-- ==== Proof.AttentionSpec.lean ====
/-
  Scaled dot-product self-attention of ONE batch element, over the extended reals, index by index.

  A batch element is a 16 × 512 array `x` (16 positions, 512 features).  The fused weight `w` has 1536 rows: rows
  0–511 give the queries, 512–1023 the keys, 1024–1535 the values, each as `x · wᵀ` (`proj`).  The 512 features
  split into 8 heads of 64 columns (`col hd d`).  For a head, the score of query position `q` against key position
  `k` is the dot product of their 64 columns, scaled by 1/8 = 1/√64; a row of scores is turned into weights by the
  usual shifted softmax — subtract the row maximum (taken from −∞), exponentiate, divide by the row sum —; a head's
  output at (q, column j) is the weighted sum of the value rows at column j; and the result is the heads' outputs,
  side by side, times `woᵀ`.  Everything is stated with the extended reals' own operations (`Ideal.exp`,
  `Ideal.div`), so that no finiteness is needed to compare two programs that compute it.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value a row maximum starts from: the binary32 word of −∞. -/
abbrev negInf : EReal := Ideal.ofBits .f32 0xFF800000#32

/-- The scale 1/√64. -/
abbrev eighth : EReal := ((1 / 8 : ℝ) : EReal)

/-- Column `d` of head `hd` among the 512 features. -/
abbrev col (hd : Fin 8) (d : Fin 64) : Fin 512 := ⟨hd.val * 64 + d.val, by have := hd.isLt; have := d.isLt; omega⟩

/-- The head a feature column belongs to. -/
abbrev headOf (j : Fin 512) : Fin 8 := ⟨j.val / 64, by have := j.isLt; omega⟩

/-- A feature column's place inside its head. -/
abbrev within (j : Fin 512) : Fin 64 := ⟨j.val % 64, by omega⟩

/-- Row `j` of part `c` (0 queries, 1 keys, 2 values) of the fused weight. -/
abbrev wrow (c : Fin 3) (j : Fin 512) : Fin 1536 := ⟨c.val * 512 + j.val, by have := c.isLt; have := j.isLt; omega⟩

theorem col_headOf_within (j : Fin 512) : col (headOf j) (within j) = j := Fin.ext (by
  show j.val / 64 * 64 + j.val % 64 = j.val; omega)

theorem headOf_col (hd : Fin 8) (d : Fin 64) : headOf (col hd d) = hd := Fin.ext (by
  have := d.isLt; show (hd.val * 64 + d.val) / 64 = hd.val; omega)

theorem within_col (hd : Fin 8) (d : Fin 64) : within (col hd d) = d := Fin.ext (by
  have := d.isLt; show (hd.val * 64 + d.val) % 64 = d.val; omega)

/-! ## The projections -/

/-- Part `c` of the fused projection at position `s`, feature `j`: row `s` of `x` against row `c·512 + j` of `w`. -/
def proj (x : Fin 16 → Fin 512 → EReal) (w : Fin 1536 → Fin 512 → EReal) (c : Fin 3) (s : Fin 16) (j : Fin 512) : EReal :=
  ∑ h : Fin 512, x s h * w (wrow c j) h

/-! ## One head, from queries `Q`, keys `K` and values `V` (16 × 512 each) -/

section Head
variable (Q K V : Fin 16 → Fin 512 → EReal)

/-- The scaled score of query position `q` against key position `k` in head `hd`. -/
def scoreOf (hd : Fin 8) (q k : Fin 16) : EReal :=
  (∑ d : Fin 64, Q q (col hd d) * K k (col hd d)) * eighth

/-- The maximum of a row of scores, taken from −∞ (the outer `max` against −∞ changes nothing and is kept as written). -/
def rowMaxOf (hd : Fin 8) (q : Fin 16) : EReal :=
  max negInf ((Finset.univ : Finset (Fin 16)).fold max negInf (fun k => scoreOf Q K hd q k))

/-- The shifted exponential of a score. -/
def expOf (hd : Fin 8) (q k : Fin 16) : EReal := Ideal.exp (scoreOf Q K hd q k - rowMaxOf Q K hd q)

/-- The sum of a row of shifted exponentials. -/
def denOf (hd : Fin 8) (q : Fin 16) : EReal := ∑ k : Fin 16, expOf Q K hd q k

/-- The softmax weight of key position `k` for query position `q`. -/
def probOf (hd : Fin 8) (q k : Fin 16) : EReal := Ideal.div (expOf Q K hd q k) (denOf Q K hd q)

/-- Head `hd`'s output at query position `q`, feature column `j`: the weighted sum of the values' column `j`. -/
def mixAt (hd : Fin 8) (q : Fin 16) (j : Fin 512) : EReal := ∑ k : Fin 16, probOf Q K hd q k * V k j

end Head

/-! ## The layer -/

/-- Attention of one batch element `x` under the fused weight `w`, then the output projection `wo`: at position
    `s`, output feature `o`. -/
def out (x : Fin 16 → Fin 512 → EReal) (w : Fin 1536 → Fin 512 → EReal) (wo : Fin 512 → Fin 512 → EReal)
    (s : Fin 16) (o : Fin 512) : EReal :=
  ∑ j : Fin 512, mixAt (proj x w 0) (proj x w 1) (proj x w 2) (headOf j) s j * wo o j

/-- The whole layer on a batch of 4096 elements, as one function of the three argument arrays: batch element `b`
    depends on row `b` of `X` only. -/
def layer (X : (⟨3, ![4096, 16, 512]⟩ : Shape).Idx → EReal) (W : (⟨2, ![1536, 512]⟩ : Shape).Idx → EReal)
    (Wo : (⟨2, ![512, 512]⟩ : Shape).Idx → EReal) : (⟨3, ![4096, 16, 512]⟩ : Shape).Idx → EReal :=
  fun i => out (fun s h => X (ix3 (i 0) s h)) (fun r h => W (ix2 r h)) (fun o j => Wo (ix2 o j)) (i 1) (i 2)

/-! ## The two spellings of the scale -/

/-- The word `0x3E000000` is 1/8. -/
theorem ofBits_eighth : Ideal.ofBits .f32 0x3E000000#32 = eighth := by
  simp [Ideal.ofBits, Ideal.ieee, -EReal.coe_mul]; norm_num

/-- The word `0x42800000` is 64. -/
theorem ofBits_64 : Ideal.ofBits .f32 0x42800000#32 = ((64 : ℝ) : EReal) := by
  simp [Ideal.ofBits, Ideal.ieee, -EReal.coe_mul]; norm_num

/-- Dividing by √64 is multiplying by 1/8, on every extended real. -/
theorem div_sqrt_64 (y : EReal) : Ideal.div y (Ideal.sqrt (Ideal.ofBits .f32 0x42800000#32)) = y * eighth := by
  rw [ofBits_64, Ideal.sqrt_coe, if_neg (by norm_num)]
  have h8 : Real.sqrt 64 = 8 := by
    rw [show (64 : ℝ) = 8 ^ 2 by norm_num]; exact Real.sqrt_sq (by norm_num)
  rw [h8, Ideal.div_coe (by norm_num : (8 : ℝ) ≠ 0)]

end Cert.Attn

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.KernelProj.lean ====
/-
  The kernel body's three projections.

  The body flattens its block of 128 batch elements × 16 positions to 2048 rows of 512 features, multiplies by the
  transpose of a 512-row part of the fused weight (rows `off` … `off + 511`), and folds the 2048 rows back.  Read at
  batch element `p`, position `s` and feature `j`, this is row `s` of the element against row `off + j` of the
  weight: part `c` of `Cert.Attn.proj` when `off = c·512`.
-/
import proofs.«131995_j42855183680160_1_alg».proof.Proof.Gen.KernelIdeal.Skeleton
import proofs.«131995_j42855183680160_1_alg».proof.Proof.AttentionSpec
import proofs.«131995_j42855183680160_1_alg».proof.Proof.LibDotRead
import Idealize.ShloMosaic.Lib.Pipeline.Value
import Idealize.ShloMosaic.Lib.ValueIdx
import Idealize.ShloMosaic.PureOps.Ideal.Laws

noncomputable section

namespace Cert.KerAttn

open Cert.KernelIdeal Cert.KernelIdeal.Gen Idealize.ShloMosaic Idealize.ShloMosaic.ValueIdx

variable {F : FTy → Type} [FloatOps F]

/-- Row `p·16 + s` of the flattened block: batch element `p`, position `s`. -/
abbrev row (p : Fin 128) (s : Fin 16) : Fin 2048 := ⟨p.val * 16 + s.val, by have := p.isLt; have := s.isLt; omega⟩

/-- A block flattened to rows, read at a row. -/
theorem flatten_apply {α : Type} (v : S128x16x512.Idx → α) (p : Fin 128) (s : Fin 16) (j : Fin 512) :
    shapeCast S2048x512 v shapeCasts_S128x16x512_S2048x512 (ix2 (row p s) j) = v (ix3 p s j) :=
  shapeCast_apply v shapeCasts_S128x16x512_S2048x512 (ix2 (row p s) j) (ix3 p s j) (by
    rw [Shape.rowMajor_val_three, Shape.rowMajor_val_two]; rfl)

/-- Rows folded back to a block, read at a batch element and position. -/
theorem unflatten_apply {α : Type} (v : S2048x512.Idx → α) (p : Fin 128) (s : Fin 16) (j : Fin 512) :
    shapeCast S128x16x512 v shapeCasts_S2048x512_S128x16x512 (ix3 p s j) = v (ix2 (row p s) j) :=
  shapeCast_apply v shapeCasts_S2048x512_S128x16x512 (ix3 p s j) (ix2 (row p s) j) (by
    rw [Shape.rowMajor_val_three, Shape.rowMajor_val_two]; rfl)

/-- The transpose of a square matrix, read at an entry. -/
theorem transpose_sq_apply {α : Type} (v : S512x512.Idx → α) (a b : Fin 512) :
    transpose S512x512 [1, 0] v transposes_S512x512_p1_0_S512x512 (ix2 a b) = v (ix2 b a) :=
  transpose_apply [1, 0] v transposes_S512x512_p1_0_S512x512 (ix2 a b) (ix2 b a) (fun t => match t with
    | ⟨0, _⟩ => rfl
    | ⟨1, _⟩ => rfl)

/-- 2048 rows against a 512 × 512 matrix, from zero: the plain sum over the 512 shared coordinates. -/
theorem rows_matmul_apply {φ₁ φ₂ : FTy} (A : FVec Ideal S2048x512 φ₁) (B : FVec Ideal S512x512 φ₂) (n : Fin 2048) (o : Fin 512) :
    matmul dot_S2048x512_S512x512_S2048x512_1_0_0_1_n_n none A B (constant S2048x512 .f32 0x00000000#32) (ix2 n o)
      = ∑ h : Fin 512, A (ix2 n h) * B (ix2 h o) :=
  (Ideal.matmul_constant_zero_apply dot_S2048x512_S512x512_S2048x512_1_0_0_1_n_n none A B (ix2 n o)).trans
    (Cert.DotRead.sum_contr_plain _ A B n o)

/-- The body's projection by the rows `off` … `off + 511` of the fused weight. -/
def projK (off : Nat) (hs : S1536x512.Slices ![off, 0] S512x512) (x : Vec F S128x16x512 .f32) (w : Vec F S1536x512 .bf16) :
    FVec F S128x16x512 .bf16 :=
  shapeCast S128x16x512
    (truncf .bf16
      (matmul dot_S2048x512_S512x512_S2048x512_1_0_0_1_n_n none
        (shapeCast S2048x512 (truncf .bf16 x bitsLt_bf16_f32) shapeCasts_S128x16x512_S2048x512)
        (transpose S512x512 [1, 0]
          (extractStridedSlice S512x512 ![off, 0] (shapeCast S1536x512 w shapeCasts_S1536x512_S1536x512) hs)
          transposes_S512x512_p1_0_S512x512)
        (constant S2048x512 .f32 0x00000000#32))
      bitsLt_bf16_f32)
    shapeCasts_S2048x512_S128x16x512

/-- The projection read at batch element `p`, position `s`, feature `j`. -/
theorem projK_apply (c : Fin 3) (off : Nat) (hoff : off = c.val * 512) (hs : S1536x512.Slices ![off, 0] S512x512)
    (x : Vec Ideal S128x16x512 .f32) (w : Vec Ideal S1536x512 .bf16) (p : Fin 128) (s : Fin 16) (j : Fin 512) :
    projK (F := Ideal) off hs x w (ix3 p s j)
      = Cert.Attn.proj (fun s h => x (ix3 p s h)) (fun r h => w (ix2 r h)) c s j := by
  subst hoff
  unfold projK Cert.Attn.proj
  rw [unflatten_apply]
  refine (rows_matmul_apply _ _ (row p s) j).trans ?_
  refine Finset.sum_congr rfl fun h _ => ?_
  rw [flatten_apply, transpose_sq_apply, shapeCast_self]
  refine congrArg₂ (· * ·) rfl ?_
  exact extractStridedSlice_apply ![c.val * 512, 0] w hs (ix2 j h) (ix2 (Cert.Attn.wrow c j) h) (fun a => match a with
    | ⟨0, _⟩ => rfl
    | ⟨1, _⟩ => by show h.val = 0 + h.val; omega)

end Cert.KerAttn

end
-- ==== Proof.KernelHead.lean ====
/-
  One head of the kernel's body.

  From the block's queries, keys and values (128 batch elements × 16 positions × 512 features each) the body takes
  the 64 columns of a head, multiplies queries by keys batch element by batch element, scales by 1/8, applies the
  shifted softmax along the key axis and multiplies by the values.  Read at batch element `p`, position `s` and
  column `d`, this is the head's output `Cert.Attn.mixAt` of that batch element's rows.
-/
import proofs.«131995_j42855183680160_1_alg».proof.Proof.Gen.KernelIdeal.Skeleton
import proofs.«131995_j42855183680160_1_alg».proof.Proof.AttentionSpec
import Idealize.ShloMosaic.Lib.Pipeline.Value
import Idealize.ShloMosaic.Lib.ValueIdx
import Idealize.ShloMosaic.Lib.ValueLayout
import Idealize.ShloMosaic.PureOps.Ideal.Laws

noncomputable section

namespace Cert.KerAttn

open Cert.KernelIdeal Cert.KernelIdeal.Gen Idealize.ShloMosaic Idealize.ShloMosaic.ValueIdx

variable {F : FTy → Type} [FloatOps F]

/-- The body's computation for the head whose columns start at `off`. -/
def headK (off : Nat) (hs : S128x16x512.Slices ![0, 0, off] S128x16x64) (q k v : FVec F S128x16x512 .bf16) :
    FVec F S128x16x64 .bf16 :=
  have qh : FVec F S128x16x64 .bf16 := extractStridedSlice S128x16x64 ![0, 0, off] q hs
  have kh : FVec F S128x16x64 .bf16 := extractStridedSlice S128x16x64 ![0, 0, off] k hs
  have vh : FVec F S128x16x64 .bf16 := extractStridedSlice S128x16x64 ![0, 0, off] v hs
  have z : FVec F S128x16x16 .f32 := constant S128x16x16 .f32 0x00000000#32
  have sc : FVec F S128x16x16 .f32 := matmul dot_S128x16x64_S128x16x64_S128x16x16_2_2_1_1_0_0 none qh kh z
  have c8 : F .f32 := Scalar.ofBits .f32 0x3E000000#32
  have sc8 : FVec F S128x16x16 .f32 := mulf sc (broadcast S128x16x16 c8)
  have mx : FVec F S128x16 .f32 := multiReduction .maximumf [2] S128x16 sc8 0xFF800000#32 reduces_S128x16x16_S128x16 (.inl rfl) rfl
  have ninf : F .f32 := Scalar.ofBits .f32 0xFF800000#32
  have mx' : FVec F S128x16 .f32 := maximumf (broadcast S128x16 ninf) mx
  have mxc : FVec F S128x16x1 .f32 := shapeCast S128x16x1 mx' shapeCasts_S128x16_S128x16x1
  have mxb : FVec F S128x16x16 .f32 := broadcastTo S128x16x16 mxc broadcasts_S128x16x1_S128x16x16
  have e : FVec F S128x16x16 .f32 := exp (subf sc8 mxb)
  have sm : FVec F S128x16 .f32 := multiReduction .add [2] S128x16 e 0x00000000#32 reduces_S128x16x16_S128x16 (.inl rfl) rfl
  have smc : FVec F S128x16x1 .f32 := shapeCast S128x16x1 sm shapeCasts_S128x16_S128x16x1
  have smb : FVec F S128x16x16 .f32 := broadcastTo S128x16x16 smc broadcasts_S128x16x1_S128x16x16
  have pr : FVec F S128x16x16 .bf16 := truncf .bf16 (divf e smb) bitsLt_bf16_f32
  have z' : FVec F S128x16x64 .f32 := constant S128x16x64 .f32 0x00000000#32
  have o : FVec F S128x16x64 .f32 := matmul dot_S128x16x16_S128x16x64_S128x16x64_2_1_1_2_0_0 none pr vh z'
  truncf .bf16 o bitsLt_bf16_f32

/-! ## The layout operations at coordinates -/

/-- A slice of 64 columns starting at column `off`, read at (p, s, d), is the operand at column `off + d`. -/
theorem slice_apply {α : Type} (off : Nat) (hs : S128x16x512.Slices ![0, 0, off] S128x16x64) (x : S128x16x512.Idx → α)
    (p : Fin 128) (s : Fin 16) (d : Fin 64) (c : Fin 512) (hc : c.val = off + d.val) :
    extractStridedSlice S128x16x64 ![0, 0, off] x hs (ix3 p s d) = x (ix3 p s c) :=
  extractStridedSlice_apply _ x hs (ix3 p s d) (ix3 p s c) fun a => by
    match a with
    | ⟨0, _⟩ => show p.val = 0 + p.val; omega
    | ⟨1, _⟩ => show s.val = 0 + s.val; omega
    | ⟨2, _⟩ => show c.val = off + d.val; exact hc

/-- A per-row vector given a unit key axis and repeated along it reads, at (p, s, t), the vector at (p, s). -/
theorem keepdims_apply {α : Type} (x : S128x16.Idx → α) (p : Fin 128) (s t : Fin 16) :
    broadcastTo S128x16x16 (shapeCast S128x16x1 x shapeCasts_S128x16_S128x16x1) broadcasts_S128x16x1_S128x16x16 (ix3 p s t)
      = x (ix2 p s) := by
  refine (broadcastTo_apply _ broadcasts_S128x16x1_S128x16x16 (ix3 p s t) (ix3 p s (0 : Fin 1)) fun a => ?_).trans ?_
  · match a with
    | ⟨0, _⟩ => show p.val = if (128 : Nat) = 1 then 0 else p.val; rw [if_neg (by decide)]
    | ⟨1, _⟩ => show s.val = if (16 : Nat) = 1 then 0 else s.val; rw [if_neg (by decide)]
    | ⟨2, _⟩ => show 0 = if (1 : Nat) = 1 then 0 else t.val; rw [if_pos rfl]
  · refine shapeCast_apply x shapeCasts_S128x16_S128x16x1 (ix3 p s (0 : Fin 1)) (ix2 p s) ?_
    rw [Shape.rowMajor_val_two, Shape.rowMajor_val_three]
    show p.val * 16 + s.val = (p.val * 16 + s.val) * 1 + 0
    omega

/-! ## The two reductions along the key axis -/

/-- The index over (p, s) with key coordinate `t` inserted is (p, s, t). -/
theorem lift_key (p : Fin 128) (s : Fin 16) (t : Fin 16) :
    reduces_S128x16x16_S128x16.lift (ix2 p s) t = ix3 p s t :=
  funext fun c => Fin.ext (by
    match c with
    | ⟨0, _⟩ => rfl
    | ⟨1, _⟩ => rfl
    | ⟨2, _⟩ => rfl)

/-- The maximum along the key axis, read at (p, s): the fold of `max` from −∞ over the row. -/
theorem rowMax_apply (src : FVec Ideal S128x16x16 .f32) (p : Fin 128) (s : Fin 16) :
    multiReduction .maximumf [2] S128x16 src 0xFF800000#32 reduces_S128x16x16_S128x16 (.inl rfl) rfl (ix2 p s)
      = (Finset.univ : Finset (Fin 16)).fold max Cert.Attn.negInf (fun t => src (ix3 p s t)) := by
  refine (Ideal.multiReduction_maximumf_single src 0xFF800000#32 reduces_S128x16x16_S128x16 (.inl rfl) rfl (ix2 p s)).trans ?_
  show (Finset.univ : Finset (Fin 16)).fold max Cert.Attn.negInf (src ∘ reduces_S128x16x16_S128x16.lift (ix2 p s)) = _
  exact congrArg (fun f => (Finset.univ : Finset (Fin 16)).fold max Cert.Attn.negInf f)
    (funext fun t => congrArg src (lift_key p s t))

/-- The sum along the key axis, read at (p, s). -/
theorem rowSum_apply (src : FVec Ideal S128x16x16 .f32) (p : Fin 128) (s : Fin 16) :
    multiReduction .add [2] S128x16 src 0x00000000#32 reduces_S128x16x16_S128x16 (.inl rfl) rfl (ix2 p s)
      = ∑ t : Fin 16, src (ix3 p s t) := by
  refine (Ideal.multiReduction_add_single src 0x00000000#32 reduces_S128x16x16_S128x16 (.inl rfl) rfl (ix2 p s)).trans ?_
  show ∑ t : Fin 16, src (reduces_S128x16x16_S128x16.lift (ix2 p s) t) = _
  exact Finset.sum_congr rfl fun t _ => congrArg src (lift_key p s t)

/-! ## The two batched products -/

theorem qk_lhs_0 (i : S128x16x16.Idx) (q : dot_S128x16x64_S128x16x64_S128x16x16_2_2_1_1_0_0.contr.Idx) :
    (dot_S128x16x64_S128x16x64_S128x16x16_2_2_1_1_0_0.lhsIdx i q 0).val = (i 0).val := by
  unfold DotDims.lhsIdx
  rw [dif_pos (show (0 : Fin S128x16x64.rank) ∈ dot_S128x16x64_S128x16x64_S128x16x16_2_2_1_1_0_0.lhsBatch by decide)]
  rfl
theorem qk_lhs_1 (i : S128x16x16.Idx) (q : dot_S128x16x64_S128x16x64_S128x16x16_2_2_1_1_0_0.contr.Idx) :
    (dot_S128x16x64_S128x16x64_S128x16x16_2_2_1_1_0_0.lhsIdx i q 1).val = (i 1).val := by
  unfold DotDims.lhsIdx
  rw [dif_neg (show ¬(1 : Fin S128x16x64.rank) ∈ dot_S128x16x64_S128x16x64_S128x16x16_2_2_1_1_0_0.lhsBatch by decide), dif_pos (show (1 : Fin S128x16x64.rank) ∈ dot_S128x16x64_S128x16x64_S128x16x16_2_2_1_1_0_0.lhsNonContracting by decide)]
  rfl
theorem qk_lhs_2 (i : S128x16x16.Idx) (q : dot_S128x16x64_S128x16x64_S128x16x16_2_2_1_1_0_0.contr.Idx) :
    (dot_S128x16x64_S128x16x64_S128x16x16_2_2_1_1_0_0.lhsIdx i q 2).val = (q ⟨0, by decide⟩).val :=
  dot_S128x16x64_S128x16x64_S128x16x16_2_2_1_1_0_0.lhsIdx_val_of_single rfl i q
theorem qk_rhs_0 (i : S128x16x16.Idx) (q : dot_S128x16x64_S128x16x64_S128x16x16_2_2_1_1_0_0.contr.Idx) :
    (dot_S128x16x64_S128x16x64_S128x16x16_2_2_1_1_0_0.rhsIdx i q 0).val = (i 0).val := by
  unfold DotDims.rhsIdx
  rw [dif_pos (show (0 : Fin S128x16x64.rank) ∈ dot_S128x16x64_S128x16x64_S128x16x16_2_2_1_1_0_0.rhsBatch by decide)]
  rfl
theorem qk_rhs_1 (i : S128x16x16.Idx) (q : dot_S128x16x64_S128x16x64_S128x16x16_2_2_1_1_0_0.contr.Idx) :
    (dot_S128x16x64_S128x16x64_S128x16x16_2_2_1_1_0_0.rhsIdx i q 1).val = (i 2).val := by
  unfold DotDims.rhsIdx
  rw [dif_neg (show ¬(1 : Fin S128x16x64.rank) ∈ dot_S128x16x64_S128x16x64_S128x16x16_2_2_1_1_0_0.rhsBatch by decide), dif_pos (show (1 : Fin S128x16x64.rank) ∈ dot_S128x16x64_S128x16x64_S128x16x16_2_2_1_1_0_0.rhsNonContracting by decide)]
  rfl
theorem qk_rhs_2 (i : S128x16x16.Idx) (q : dot_S128x16x64_S128x16x64_S128x16x16_2_2_1_1_0_0.contr.Idx) :
    (dot_S128x16x64_S128x16x64_S128x16x16_2_2_1_1_0_0.rhsIdx i q 2).val = (q ⟨0, by decide⟩).val :=
  dot_S128x16x64_S128x16x64_S128x16x16_2_2_1_1_0_0.rhsIdx_val_of_single rfl i q

/-- Queries times keys, batch element by batch element, into the zero array: at (p, s, t) the dot product over the
    64 columns of query row (p, s) and key row (p, t). -/
theorem qk_apply (a b : FVec Ideal S128x16x64 .bf16) (p : Fin 128) (s t : Fin 16) :
    matmul dot_S128x16x64_S128x16x64_S128x16x16_2_2_1_1_0_0 none a b (constant (F := Ideal) S128x16x16 .f32 0x00000000#32) (ix3 p s t)
      = ∑ e : Fin 64, a (ix3 p s e) * b (ix3 p t e) := by
  simp only [matmul]
  rw [Ideal.matmul_constant_zero_apply, ← Equiv.sum_comp (ValueIdx.contrEquiv1 dot_S128x16x64_S128x16x64_S128x16x16_2_2_1_1_0_0 64 rfl rfl).symm]
  refine Finset.sum_congr rfl fun e _ => ?_
  have he := ValueIdx.contrEquiv1_symm_val dot_S128x16x64_S128x16x64_S128x16x16_2_2_1_1_0_0 64 rfl rfl e
  have el : dot_S128x16x64_S128x16x64_S128x16x16_2_2_1_1_0_0.lhsIdx (ix3 p s t) ((ValueIdx.contrEquiv1 dot_S128x16x64_S128x16x64_S128x16x16_2_2_1_1_0_0 64 rfl rfl).symm e) = ix3 p s e := funext fun c => Fin.ext (by
    match c with
    | ⟨0, _⟩ => exact qk_lhs_0 _ _
    | ⟨1, _⟩ => exact qk_lhs_1 _ _
    | ⟨2, _⟩ => exact (qk_lhs_2 _ _).trans he)
  have er : dot_S128x16x64_S128x16x64_S128x16x16_2_2_1_1_0_0.rhsIdx (ix3 p s t) ((ValueIdx.contrEquiv1 dot_S128x16x64_S128x16x64_S128x16x16_2_2_1_1_0_0 64 rfl rfl).symm e) = ix3 p t e := funext fun c => Fin.ext (by
    match c with
    | ⟨0, _⟩ => exact qk_rhs_0 _ _
    | ⟨1, _⟩ => exact qk_rhs_1 _ _
    | ⟨2, _⟩ => exact (qk_rhs_2 _ _).trans he)
  rw [el, er]

theorem pv_lhs_0 (i : S128x16x64.Idx) (q : dot_S128x16x16_S128x16x64_S128x16x64_2_1_1_2_0_0.contr.Idx) :
    (dot_S128x16x16_S128x16x64_S128x16x64_2_1_1_2_0_0.lhsIdx i q 0).val = (i 0).val := by
  unfold DotDims.lhsIdx
  rw [dif_pos (show (0 : Fin S128x16x16.rank) ∈ dot_S128x16x16_S128x16x64_S128x16x64_2_1_1_2_0_0.lhsBatch by decide)]
  rfl
theorem pv_lhs_1 (i : S128x16x64.Idx) (q : dot_S128x16x16_S128x16x64_S128x16x64_2_1_1_2_0_0.contr.Idx) :
    (dot_S128x16x16_S128x16x64_S128x16x64_2_1_1_2_0_0.lhsIdx i q 1).val = (i 1).val := by
  unfold DotDims.lhsIdx
  rw [dif_neg (show ¬(1 : Fin S128x16x16.rank) ∈ dot_S128x16x16_S128x16x64_S128x16x64_2_1_1_2_0_0.lhsBatch by decide), dif_pos (show (1 : Fin S128x16x16.rank) ∈ dot_S128x16x16_S128x16x64_S128x16x64_2_1_1_2_0_0.lhsNonContracting by decide)]
  rfl
theorem pv_lhs_2 (i : S128x16x64.Idx) (q : dot_S128x16x16_S128x16x64_S128x16x64_2_1_1_2_0_0.contr.Idx) :
    (dot_S128x16x16_S128x16x64_S128x16x64_2_1_1_2_0_0.lhsIdx i q 2).val = (q ⟨0, by decide⟩).val :=
  dot_S128x16x16_S128x16x64_S128x16x64_2_1_1_2_0_0.lhsIdx_val_of_single rfl i q
theorem pv_rhs_0 (i : S128x16x64.Idx) (q : dot_S128x16x16_S128x16x64_S128x16x64_2_1_1_2_0_0.contr.Idx) :
    (dot_S128x16x16_S128x16x64_S128x16x64_2_1_1_2_0_0.rhsIdx i q 0).val = (i 0).val := by
  unfold DotDims.rhsIdx
  rw [dif_pos (show (0 : Fin S128x16x64.rank) ∈ dot_S128x16x16_S128x16x64_S128x16x64_2_1_1_2_0_0.rhsBatch by decide)]
  rfl
theorem pv_rhs_1 (i : S128x16x64.Idx) (q : dot_S128x16x16_S128x16x64_S128x16x64_2_1_1_2_0_0.contr.Idx) :
    (dot_S128x16x16_S128x16x64_S128x16x64_2_1_1_2_0_0.rhsIdx i q 1).val = (q ⟨0, by decide⟩).val :=
  dot_S128x16x16_S128x16x64_S128x16x64_2_1_1_2_0_0.rhsIdx_val_of_single rfl i q
theorem pv_rhs_2 (i : S128x16x64.Idx) (q : dot_S128x16x16_S128x16x64_S128x16x64_2_1_1_2_0_0.contr.Idx) :
    (dot_S128x16x16_S128x16x64_S128x16x64_2_1_1_2_0_0.rhsIdx i q 2).val = (i 2).val := by
  unfold DotDims.rhsIdx
  rw [dif_neg (show ¬(2 : Fin S128x16x64.rank) ∈ dot_S128x16x16_S128x16x64_S128x16x64_2_1_1_2_0_0.rhsBatch by decide), dif_pos (show (2 : Fin S128x16x64.rank) ∈ dot_S128x16x16_S128x16x64_S128x16x64_2_1_1_2_0_0.rhsNonContracting by decide)]
  rfl

/-- Weights times values, batch element by batch element, into the zero array: at (p, s, d) the sum over the 16 key
    positions of the weight at (p, s, t) times the value at (p, t, d). -/
theorem pv_apply (w : FVec Ideal S128x16x16 .bf16) (b : FVec Ideal S128x16x64 .bf16) (p : Fin 128) (s : Fin 16) (d : Fin 64) :
    matmul dot_S128x16x16_S128x16x64_S128x16x64_2_1_1_2_0_0 none w b (constant (F := Ideal) S128x16x64 .f32 0x00000000#32) (ix3 p s d)
      = ∑ t : Fin 16, w (ix3 p s t) * b (ix3 p t d) := by
  simp only [matmul]
  rw [Ideal.matmul_constant_zero_apply, ← Equiv.sum_comp (ValueIdx.contrEquiv1 dot_S128x16x16_S128x16x64_S128x16x64_2_1_1_2_0_0 16 rfl rfl).symm]
  refine Finset.sum_congr rfl fun t _ => ?_
  have ht := ValueIdx.contrEquiv1_symm_val dot_S128x16x16_S128x16x64_S128x16x64_2_1_1_2_0_0 16 rfl rfl t
  have el : dot_S128x16x16_S128x16x64_S128x16x64_2_1_1_2_0_0.lhsIdx (ix3 p s d) ((ValueIdx.contrEquiv1 dot_S128x16x16_S128x16x64_S128x16x64_2_1_1_2_0_0 16 rfl rfl).symm t) = ix3 p s t := funext fun c => Fin.ext (by
    match c with
    | ⟨0, _⟩ => exact pv_lhs_0 _ _
    | ⟨1, _⟩ => exact pv_lhs_1 _ _
    | ⟨2, _⟩ => exact (pv_lhs_2 _ _).trans ht)
  have er : dot_S128x16x16_S128x16x64_S128x16x64_2_1_1_2_0_0.rhsIdx (ix3 p s d) ((ValueIdx.contrEquiv1 dot_S128x16x16_S128x16x64_S128x16x64_2_1_1_2_0_0 16 rfl rfl).symm t) = ix3 p t d := funext fun c => Fin.ext (by
    match c with
    | ⟨0, _⟩ => exact pv_rhs_0 _ _
    | ⟨1, _⟩ => exact (pv_rhs_1 _ _).trans ht
    | ⟨2, _⟩ => exact pv_rhs_2 _ _)
  rw [el, er]

/-! ## The body's pieces, at the ideal values -/

/-- The head's scaled scores: queries' columns times keys' columns, times the word of 1/8. -/
def scoreK (off : Nat) (hs : S128x16x512.Slices ![0, 0, off] S128x16x64) (q k : FVec Ideal S128x16x512 .bf16) :
    FVec Ideal S128x16x16 .f32 :=
  mulf (matmul dot_S128x16x64_S128x16x64_S128x16x16_2_2_1_1_0_0 none (extractStridedSlice S128x16x64 ![0, 0, off] q hs)
      (extractStridedSlice S128x16x64 ![0, 0, off] k hs) (constant S128x16x16 .f32 0x00000000#32))
    (broadcast S128x16x16 (Scalar.ofBits .f32 0x3E000000#32))

/-- The shifted exponentials of an array of scores: each row minus its maximum (taken from −∞, and once more against
    −∞), exponentiated. -/
def expK (sc : FVec Ideal S128x16x16 .f32) : FVec Ideal S128x16x16 .f32 :=
  exp (subf sc (broadcastTo S128x16x16 (shapeCast S128x16x1
    (maximumf (broadcast S128x16 (Scalar.ofBits .f32 0xFF800000#32))
      (multiReduction .maximumf [2] S128x16 sc 0xFF800000#32 reduces_S128x16x16_S128x16 (.inl rfl) rfl))
    shapeCasts_S128x16_S128x16x1) broadcasts_S128x16x1_S128x16x16))

/-- The weights: each exponential divided by its row's sum. -/
def probK (e : FVec Ideal S128x16x16 .f32) : FVec Ideal S128x16x16 .bf16 :=
  truncf .bf16 (divf e (broadcastTo S128x16x16 (shapeCast S128x16x1
    (multiReduction .add [2] S128x16 e 0x00000000#32 reduces_S128x16x16_S128x16 (.inl rfl) rfl)
    shapeCasts_S128x16_S128x16x1) broadcasts_S128x16x1_S128x16x16)) bitsLt_bf16_f32

/-- The body's head is the weights of the shifted exponentials of the scaled scores, times the values' columns. -/
theorem headK_eq (off : Nat) (hs : S128x16x512.Slices ![0, 0, off] S128x16x64) (q k v : FVec Ideal S128x16x512 .bf16) :
    headK (F := Ideal) off hs q k v
      = truncf .bf16 (matmul dot_S128x16x16_S128x16x64_S128x16x64_2_1_1_2_0_0 none (probK (expK (scoreK off hs q k)))
          (extractStridedSlice S128x16x64 ![0, 0, off] v hs) (constant S128x16x64 .f32 0x00000000#32)) bitsLt_bf16_f32 := rfl

/-- The scaled scores at (p, s, t) are the specification's score of query position `s` against key position `t`. -/
theorem scoreK_apply (hd : Fin 8) (hs : S128x16x512.Slices ![0, 0, hd.val * 64] S128x16x64)
    (q k : FVec Ideal S128x16x512 .bf16) (p : Fin 128) (s t : Fin 16) :
    scoreK (hd.val * 64) hs q k (ix3 p s t)
      = Cert.Attn.scoreOf (fun s j => q (ix3 p s j)) (fun s j => k (ix3 p s j)) hd s t := by
  unfold scoreK Cert.Attn.scoreOf
  rw [mulf_apply, broadcast_apply, qk_apply]
  show _ * Ideal.ofBits .f32 0x3E000000#32 = _
  rw [Cert.Attn.ofBits_eighth]
  refine congrArg (· * Cert.Attn.eighth) (Finset.sum_congr rfl fun e _ => ?_)
  rw [slice_apply _ hs q p s e (Cert.Attn.col hd e) rfl, slice_apply _ hs k p t e (Cert.Attn.col hd e) rfl]

/-- The shifted exponential at (p, s, t). -/
theorem expK_apply (sc : FVec Ideal S128x16x16 .f32) (p : Fin 128) (s t : Fin 16) :
    expK sc (ix3 p s t)
      = Ideal.exp (sc (ix3 p s t)
          - max Cert.Attn.negInf ((Finset.univ : Finset (Fin 16)).fold max Cert.Attn.negInf (fun t' => sc (ix3 p s t')))) := by
  unfold expK
  show Ideal.exp (sc (ix3 p s t) - broadcastTo S128x16x16 _ broadcasts_S128x16x1_S128x16x16 (ix3 p s t)) = _
  rw [keepdims_apply, maximumf_apply, broadcast_apply, rowMax_apply]
  rfl

/-- The weight at (p, s, t). -/
theorem probK_apply (e : FVec Ideal S128x16x16 .f32) (p : Fin 128) (s t : Fin 16) :
    probK e (ix3 p s t) = Ideal.div (e (ix3 p s t)) (∑ t' : Fin 16, e (ix3 p s t')) := by
  unfold probK
  rw [truncf_apply, divf_apply, keepdims_apply, rowSum_apply]

/-- The head whose columns start at `hd·64`, read at batch element `p`, position `s`, column `d`. -/
theorem headK_apply (hd : Fin 8) (off : Nat) (hoff : off = hd.val * 64) (hs : S128x16x512.Slices ![0, 0, off] S128x16x64)
    (q k v : FVec Ideal S128x16x512 .bf16) (p : Fin 128) (s : Fin 16) (d : Fin 64) :
    headK (F := Ideal) off hs q k v (ix3 p s d)
      = Cert.Attn.mixAt (fun s j => q (ix3 p s j)) (fun s j => k (ix3 p s j)) (fun s j => v (ix3 p s j)) hd s (Cert.Attn.col hd d) := by
  subst hoff
  rw [headK_eq, truncf_apply, pv_apply]
  unfold Cert.Attn.mixAt
  refine Finset.sum_congr rfl fun t _ => ?_
  rw [slice_apply _ hs v p t d (Cert.Attn.col hd d) rfl, probK_apply]
  unfold Cert.Attn.probOf Cert.Attn.denOf Cert.Attn.expOf Cert.Attn.rowMaxOf
  simp only [expK_apply, scoreK_apply]

end Cert.KerAttn

end
-- ==== Proof.KernelBlock.lean ====
/-
  The kernel body on one block, read at an index.

  The body projects its block to queries, keys and values, computes the eight heads, lays their outputs side by
  side along the feature axis (head `hd` in columns `hd·64` … `hd·64 + 63`), flattens the block to rows and
  multiplies by the transpose of the output weight.  Read at batch element `p`, position `s` and output feature
  `o` this is `Cert.Attn.out` of that batch element's rows: no other batch element of the block enters.
-/
import proofs.«131995_j42855183680160_1_alg».proof.Proof.KernelProj
import proofs.«131995_j42855183680160_1_alg».proof.Proof.KernelHead

noncomputable section

namespace Cert.KerAttn

open Cert.KernelIdeal Cert.KernelIdeal.Gen Idealize.ShloMosaic Idealize.ShloMosaic.ValueIdx

variable {F : FTy → Type} [FloatOps F]

/-! ## Eight vectors side by side -/

/-- Eight [128, 16, 64] vectors as the pieces of a concatenation. -/
abbrev eight {α : Type} (f : Fin 8 → (S128x16x64.Idx → α)) : List ((s : Shape) × (s.Idx → α)) :=
  [⟨S128x16x64, f 0⟩, ⟨S128x16x64, f 1⟩, ⟨S128x16x64, f 2⟩, ⟨S128x16x64, f 3⟩,
    ⟨S128x16x64, f 4⟩, ⟨S128x16x64, f 5⟩, ⟨S128x16x64, f 6⟩, ⟨S128x16x64, f 7⟩]

/-- Eight [128, 16, 64] vectors concatenated along the last axis, read in the columns of piece `hd`. -/
theorem sideBySide_col {α : Type} (f : Fin 8 → (S128x16x64.Idx → α))
    (h : Shape.Concatenates ((eight f).map (·.1)) S128x16x512 2)
    (p : Fin 128) (s : Fin 16) (hd : Fin 8) (d : Fin 64) :
    concatenate S128x16x512 2 (eight f) h (ix3 p s (Cert.Attn.col hd d)) = f hd (ix3 p s d) := by
  have hoff : ∀ (jj : Fin 512) (b : Fin S128x16x64.rank),
      b.cast (rfl : S128x16x64.rank = S128x16x512.rank) ≠ (2 : Fin S128x16x512.rank) →
      ((ix3 p s d : S128x16x64.Idx) b).val = ((ix3 p s jj : S128x16x512.Idx) (b.cast rfl)).val := fun jj b hb =>
    match b, hb with
    | ⟨0, _⟩, _ => rfl
    | ⟨1, _⟩, _ => rfl
    | ⟨2, _⟩, hb => absurd rfl hb
  match hd with
  | ⟨0, _⟩ => exact concatenate_apply_piece (t := S128x16x512) 2 (eight f) h (ix3 p s (Cert.Attn.col ⟨0, by omega⟩ d)) 0 (by show 0 < 8; omega) S128x16x64 (f 0) rfl rfl 0 rfl (ix3 p s d) (hoff _) (by show 0 + d.val = 0 * 64 + d.val; omega)
  | ⟨1, _⟩ => exact concatenate_apply_piece (t := S128x16x512) 2 (eight f) h (ix3 p s (Cert.Attn.col ⟨1, by omega⟩ d)) 1 (by show 1 < 8; omega) S128x16x64 (f 1) rfl rfl 64 rfl (ix3 p s d) (hoff _) (by show 64 + d.val = 1 * 64 + d.val; omega)
  | ⟨2, _⟩ => exact concatenate_apply_piece (t := S128x16x512) 2 (eight f) h (ix3 p s (Cert.Attn.col ⟨2, by omega⟩ d)) 2 (by show 2 < 8; omega) S128x16x64 (f 2) rfl rfl 128 rfl (ix3 p s d) (hoff _) (by show 128 + d.val = 2 * 64 + d.val; omega)
  | ⟨3, _⟩ => exact concatenate_apply_piece (t := S128x16x512) 2 (eight f) h (ix3 p s (Cert.Attn.col ⟨3, by omega⟩ d)) 3 (by show 3 < 8; omega) S128x16x64 (f 3) rfl rfl 192 rfl (ix3 p s d) (hoff _) (by show 192 + d.val = 3 * 64 + d.val; omega)
  | ⟨4, _⟩ => exact concatenate_apply_piece (t := S128x16x512) 2 (eight f) h (ix3 p s (Cert.Attn.col ⟨4, by omega⟩ d)) 4 (by show 4 < 8; omega) S128x16x64 (f 4) rfl rfl 256 rfl (ix3 p s d) (hoff _) (by show 256 + d.val = 4 * 64 + d.val; omega)
  | ⟨5, _⟩ => exact concatenate_apply_piece (t := S128x16x512) 2 (eight f) h (ix3 p s (Cert.Attn.col ⟨5, by omega⟩ d)) 5 (by show 5 < 8; omega) S128x16x64 (f 5) rfl rfl 320 rfl (ix3 p s d) (hoff _) (by show 320 + d.val = 5 * 64 + d.val; omega)
  | ⟨6, _⟩ => exact concatenate_apply_piece (t := S128x16x512) 2 (eight f) h (ix3 p s (Cert.Attn.col ⟨6, by omega⟩ d)) 6 (by show 6 < 8; omega) S128x16x64 (f 6) rfl rfl 384 rfl (ix3 p s d) (hoff _) (by show 384 + d.val = 6 * 64 + d.val; omega)
  | ⟨7, _⟩ => exact concatenate_apply_piece (t := S128x16x512) 2 (eight f) h (ix3 p s (Cert.Attn.col ⟨7, by omega⟩ d)) 7 (by show 7 < 8; omega) S128x16x64 (f 7) rfl rfl 448 rfl (ix3 p s d) (hoff _) (by show 448 + d.val = 7 * 64 + d.val; omega)

/-- The same at any feature column `j`: piece `j / 64` at its column `j % 64`. -/
theorem sideBySide_apply {α : Type} (f : Fin 8 → (S128x16x64.Idx → α))
    (h : Shape.Concatenates ((eight f).map (·.1)) S128x16x512 2)
    (p : Fin 128) (s : Fin 16) (j : Fin 512) :
    concatenate S128x16x512 2 (eight f) h (ix3 p s j) = f (Cert.Attn.headOf j) (ix3 p s (Cert.Attn.within j)) := by
  have e := sideBySide_col f h p s (Cert.Attn.headOf j) (Cert.Attn.within j)
  rwa [Cert.Attn.col_headOf_within] at e

/-! ## The body -/

/-- The eight heads of the body, by head number: head `n` takes the columns from `n·64`. -/
def heads (Q K V : FVec F S128x16x512 .bf16) : Fin 8 → FVec F S128x16x64 .bf16 := fun n => match n with
  | ⟨0, _⟩ => headK 0 slices_S128x16x512_o0_0_0_S128x16x64 Q K V
  | ⟨1, _⟩ => headK 64 slices_S128x16x512_o0_0_64_S128x16x64 Q K V
  | ⟨2, _⟩ => headK 128 slices_S128x16x512_o0_0_128_S128x16x64 Q K V
  | ⟨3, _⟩ => headK 192 slices_S128x16x512_o0_0_192_S128x16x64 Q K V
  | ⟨4, _⟩ => headK 256 slices_S128x16x512_o0_0_256_S128x16x64 Q K V
  | ⟨5, _⟩ => headK 320 slices_S128x16x512_o0_0_320_S128x16x64 Q K V
  | ⟨6, _⟩ => headK 384 slices_S128x16x512_o0_0_384_S128x16x64 Q K V
  | ⟨7, _⟩ => headK 448 slices_S128x16x512_o0_0_448_S128x16x64 Q K V

/-- Head `n` read at batch element `p`, position `s`, column `d`. -/
theorem heads_apply (Q K V : FVec Ideal S128x16x512 .bf16) (n : Fin 8) (p : Fin 128) (s : Fin 16) (d : Fin 64) :
    heads (F := Ideal) Q K V n (ix3 p s d)
      = Cert.Attn.mixAt (fun s j => Q (ix3 p s j)) (fun s j => K (ix3 p s j)) (fun s j => V (ix3 p s j)) n s (Cert.Attn.col n d) := by
  match n with
  | ⟨0, _⟩ => exact headK_apply ⟨0, by omega⟩ 0 rfl _ Q K V p s d
  | ⟨1, _⟩ => exact headK_apply ⟨1, by omega⟩ 64 rfl _ Q K V p s d
  | ⟨2, _⟩ => exact headK_apply ⟨2, by omega⟩ 128 rfl _ Q K V p s d
  | ⟨3, _⟩ => exact headK_apply ⟨3, by omega⟩ 192 rfl _ Q K V p s d
  | ⟨4, _⟩ => exact headK_apply ⟨4, by omega⟩ 256 rfl _ Q K V p s d
  | ⟨5, _⟩ => exact headK_apply ⟨5, by omega⟩ 320 rfl _ Q K V p s d
  | ⟨6, _⟩ => exact headK_apply ⟨6, by omega⟩ 384 rfl _ Q K V p s d
  | ⟨7, _⟩ => exact headK_apply ⟨7, by omega⟩ 448 rfl _ Q K V p s d

/-- The whole body as one function of the three blocks it loads. -/
def blockK (x : Vec F S128x16x512 .f32) (w : Vec F S1536x512 .bf16) (wo : Vec F S512x512 .bf16) : FVec F S128x16x512 .f32 :=
  have Q : FVec F S128x16x512 .bf16 := projK 0 slices_S1536x512_o0_0_S512x512 x w
  have K : FVec F S128x16x512 .bf16 := projK 512 slices_S1536x512_o512_0_S512x512 x w
  have V : FVec F S128x16x512 .bf16 := projK 1024 slices_S1536x512_o1024_0_S512x512 x w
  k0_pay1
    (shapeCast S2048x512
      (concatenate S128x16x512 2 (eight (heads Q K V)) concatenates_S128x16x64_S128x16x64_S128x16x64_S128x16x64_S128x16x64_S128x16x64_S128x16x64_S128x16x64_S128x16x512_d2)
      shapeCasts_S128x16x512_S2048x512)
    wo

/-- The body's stored value is that function: the payloads unfold to it. -/
theorem payload_eq (v0 : Vec F S128x16x512 .f32) (v3 : Vec F S1536x512 .bf16) (v182 : Vec F S512x512 .bf16) :
    k0_pay1 (k0_pay20 (k0_pay4 v0 v3) (k0_pay5 v0 v3) (k0_pay6 v0 v3) (k0_pay7 v0 v3) (k0_pay10 (k0_pay8 v0 v3) (k0_pay9 v0 v3))
        (k0_pay11 (k0_pay4 v0 v3) (k0_pay5 v0 v3) (k0_pay6 v0 v3))
        (k0_pay15 (k0_pay12 (k0_pay6 v0 v3)) (k0_pay13 (k0_pay4 v0 v3) (k0_pay5 v0 v3)) (k0_pay14 (k0_pay4 v0 v3) (k0_pay5 v0 v3)))
        (k0_pay16 (k0_pay4 v0 v3) (k0_pay5 v0 v3) (k0_pay6 v0 v3)) (k0_pay17 (k0_pay6 v0 v3))
        (k0_pay18 (k0_pay4 v0 v3) (k0_pay5 v0 v3)) (k0_pay19 (k0_pay4 v0 v3) (k0_pay5 v0 v3))) v182
      = blockK v0 v3 v182 := rfl

/-- The body on a block, read at batch element `p`, position `s`, output feature `o`. -/
theorem blockK_apply (x : Vec Ideal S128x16x512 .f32) (w : Vec Ideal S1536x512 .bf16) (wo : Vec Ideal S512x512 .bf16)
    (p : Fin 128) (s : Fin 16) (o : Fin 512) :
    blockK (F := Ideal) x w wo (ix3 p s o)
      = Cert.Attn.out (fun s h => x (ix3 p s h)) (fun r h => w (ix2 r h)) (fun o j => wo (ix2 o j)) s o := by
  have hQ : (fun s j => projK (F := Ideal) 0 slices_S1536x512_o0_0_S512x512 x w (ix3 p s j))
      = Cert.Attn.proj (fun s h => x (ix3 p s h)) (fun r h => w (ix2 r h)) 0 :=
    funext fun s => funext fun j => projK_apply 0 0 rfl _ x w p s j
  have hK : (fun s j => projK (F := Ideal) 512 slices_S1536x512_o512_0_S512x512 x w (ix3 p s j))
      = Cert.Attn.proj (fun s h => x (ix3 p s h)) (fun r h => w (ix2 r h)) 1 :=
    funext fun s => funext fun j => projK_apply 1 512 rfl _ x w p s j
  have hV : (fun s j => projK (F := Ideal) 1024 slices_S1536x512_o1024_0_S512x512 x w (ix3 p s j))
      = Cert.Attn.proj (fun s h => x (ix3 p s h)) (fun r h => w (ix2 r h)) 2 :=
    funext fun s => funext fun j => projK_apply 2 1024 rfl _ x w p s j
  unfold blockK k0_pay1 Cert.Attn.out
  dsimp only
  rw [unflatten_apply]
  refine (rows_matmul_apply _ _ (row p s) o).trans ?_
  refine Finset.sum_congr rfl fun j _ => ?_
  rw [transpose_sq_apply, shapeCast_self, flatten_apply, sideBySide_apply, heads_apply, hQ, hK, hV,
    Cert.Attn.col_headOf_within]

end Cert.KerAttn

end
-- ==== Proof.KernelFinal.lean ====
/-
  The kernel's result array is the attention layer of its arguments.

  Grid point `t` of the 32 points handles batch elements `t·128` … `t·128 + 127`: it loads that block of the
  input, the whole fused weight and the whole output weight (both converted to a narrower float format first, which
  changes nothing over the extended reals), and writes back the block's result.  A block's result at batch element
  `p` depends on that element's rows only, so what point `t` writes back is block `t` of the layer computed on the
  whole arrays; the 32 blocks tile the result array.
-/
import proofs.«131995_j42855183680160_1_alg».proof.Proof.Gen.KernelIdeal.Value
import proofs.«131995_j42855183680160_1_alg».proof.Proof.KernelBlock
import Idealize.ShloMosaic.Lib.Pipeline.Value
import Idealize.ShloMosaic.Lib.StableHlo.Run

noncomputable section

namespace Cert.KerAttn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output block, read at batch element `p`, position `s`, feature `o`. -/
theorem out_apply (x0 : Vec Ideal S128x16x512 .f32) (x1 : Vec Ideal S1536x512 .bf16) (x2 : Vec Ideal S512x512 .bf16)
    (p : Fin 128) (s : Fin 16) (o : Fin 512) :
    out0_3 x0 x1 x2 (ix3 p s o)
      = Cert.Attn.out (fun s h => x0 (ix3 p s h)) (fun r h => x1 (ix2 r h)) (fun o j => x2 (ix2 o j)) s o := by
  unfold out0_3
  rw [View.canon_unit_zero zero3]
  simp only [View.ld_unit_zero (S := S128x16x512) zero3, View.ld_unit_zero (S := S1536x512) zero2,
    View.ld_unit_zero (S := S512x512) zero2]
  rw [payload_eq]
  exact blockK_apply x0 x1 x2 p s o

/-- The fused weight as the region finds it: the conversion to the narrower format is the identity. -/
theorem V_wqkv (c : Dev nD) : (V m c main_v0 : S1536x512.Idx → EReal) = m ((c : Thread nD τ).loc main_arg1) := by
  dsimp only [V, hostOps0]; after_results; rfl

/-- The output weight as the region finds it. -/
theorem V_wo (c : Dev nD) : (V m c main_v1 : S512x512.Idx → EReal) = m ((c : Thread nD τ).loc main_arg2) := by
  dsimp only [V, hostOps0]; after_results; rfl

/-- The printed index maps over the grid: the input block moves with the output block along the batch axis, and
    nothing else moves. -/
theorem idx_facts : ∀ t : Fin cfg0.N,
    win0_0.index t (0 : Fin 3) = win0_3.index t (0 : Fin 3) ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of 128 batch elements is some point's. -/
theorem idx_onto : ∀ q : Fin 32, ∃ t : Fin cfg0.N, win0_3.index t (0 : Fin 3) = q.val :=
  (by decide +kernel : ∀ q : Fin 32, ∃ t : Fin grid0.N, win0_3.index t (0 : Fin 3) = q.val)

/-- The layer of the three argument arrays as launched. -/
abbrev result (c : Dev nD) : S4096x16x512.Idx → EReal :=
  Cert.Attn.layer (m ((c : Thread nD τ).loc main_arg0)) (m ((c : Thread nD τ).loc main_arg1)) (m ((c : Thread nD τ).loc main_arg2))

/-- What point `t` writes back is block `t` of the layer. -/
theorem flushed_eq (c : Dev nD) (t : Fin cfg0.N) :
    (dats m 0 c).flushed 3 t = ((cfg0.win 3).blk t).view.read (Elt Ideal) (result m c) := by
  rw [Cert.KernelIdeal.Value.flushed3]
  obtain ⟨e0, e1, e2, e3, e4, e5, e6, e7, e8⟩ := idx_facts t
  funext y
  show out0_3 (iblk m c 0 t) (iblk m c 1 t) (iblk m c 2 t) y = result m c (((cfg0.win 3).blk t).view.emb y)
  have hy : (y : S128x16x512.Idx) = ix3 (y 0) (y 1) (y 2) := eq_ix3 y
  refine (congrArg (out0_3 (iblk m c 0 t) (iblk m c 1 t) (iblk m c 2 t)) hy).trans ?_
  refine (out_apply (iblk m c 0 t) (iblk m c 1 t) (iblk m c 2 t) (y 0) (y 1) (y 2)).trans ?_
  have hx : (fun (s : Fin 16) (h : Fin 512) => iblk m c 0 t (ix3 (y 0) s h))
      = fun s h => m ((c : Thread nD τ).loc main_arg0) (ix3 ((((cfg0.win 3).blk t).view.emb y) 0) s h) := by
    funext s h
    show V m c main_arg0 (((cfg0.win 0).blk t).view.emb (ix3 (y 0) s h)) = _
    rw [V_main_arg0]
    refine congrArg _ (funext fun a => Fin.ext ?_)
    match a with
    | ⟨0, _⟩ => show win0_0.index t (0 : Fin 3) * 128 + 1 * (y 0).val = win0_3.index t (0 : Fin 3) * 128 + 1 * (y 0).val; omega
    | ⟨1, _⟩ => show win0_0.index t (1 : Fin 3) * 16 + 1 * s.val = s.val; omega
    | ⟨2, _⟩ => show win0_0.index t (2 : Fin 3) * 512 + 1 * h.val = h.val; omega
  have hw : (fun (r : Fin 1536) (h : Fin 512) => iblk m c 1 t (ix2 r h))
      = fun r h => m ((c : Thread nD τ).loc main_arg1) (ix2 r h) := by
    funext r h
    show V m c main_v0 (((cfg0.win 1).blk t).view.emb (ix2 r h)) = _
    rw [V_wqkv]
    refine congrArg _ (funext fun a => Fin.ext ?_)
    match a with
    | ⟨0, _⟩ => show win0_1.index t (0 : Fin 2) * 1536 + 1 * r.val = r.val; omega
    | ⟨1, _⟩ => show win0_1.index t (1 : Fin 2) * 512 + 1 * h.val = h.val; omega
  have hwo : (fun (o : Fin 512) (j : Fin 512) => iblk m c 2 t (ix2 o j))
      = fun o j => m ((c : Thread nD τ).loc main_arg2) (ix2 o j) := by
    funext o j
    show V m c main_v1 (((cfg0.win 2).blk t).view.emb (ix2 o j)) = _
    rw [V_wo]
    refine congrArg _ (funext fun a => Fin.ext ?_)
    match a with
    | ⟨0, _⟩ => show win0_2.index t (0 : Fin 2) * 512 + 1 * o.val = o.val; omega
    | ⟨1, _⟩ => show win0_2.index t (1 : Fin 2) * 512 + 1 * j.val = j.val; omega
  have h1 : (((cfg0.win 3).blk t).view.emb y) 1 = y 1 := Fin.ext (by
    show win0_3.index t (1 : Fin 3) * 16 + 1 * (y 1).val = (y 1).val; omega)
  have h2 : (((cfg0.win 3).blk t).view.emb y) 2 = y 2 := Fin.ext (by
    show win0_3.index t (2 : Fin 3) * 512 + 1 * (y 2).val = (y 2).val; omega)
  show Cert.Attn.out _ _ _ (y 1) (y 2) = Cert.Attn.out _ _ _ ((((cfg0.win 3).blk t).view.emb y) 1) ((((cfg0.win 3).blk t).view.emb y) 2)
  rw [hx, hw, hwo, h1, h2]

/-- The 32 blocks tile the result array, so it ends holding the layer. -/
theorem final (c : Dev nD) : (dats m 0 c).arrAt 3 cfg0.N = result m c :=
  (dats m 0 c).arrAt_eq_of_cover 3 (result m c) (fun t _ => flushed_eq m c t) fun i => by
    have hi0 : (i 0).val < 4096 := (i 0).isLt
    have hi1 : (i 1).val < 16 := (i 1).isLt
    have hi2 : (i 2).val < 512 := (i 2).isLt
    obtain ⟨t, ht⟩ := idx_onto ⟨(i 0).val / 128, by omega⟩
    have ht' : win0_3.index t (0 : Fin 3) = (i 0).val / 128 := ht
    obtain ⟨e0, e1, e2, e3, e4, e5, e6, e7, e8⟩ := idx_facts t
    refine ⟨t, flush0_3 t, ?_⟩
    show i ∈ ((View.whole main_v2).slice (win0_3.rect t)).set
    rw [View.set_slice_whole, Rect.mem_set_unit]
    intro a
    match a with
    | ⟨0, _⟩ => show win0_3.index t (0 : Fin 3) * 128 ≤ (i 0).val ∧ (i 0).val < win0_3.index t (0 : Fin 3) * 128 + 128; omega
    | ⟨1, _⟩ => show win0_3.index t (1 : Fin 3) * 16 ≤ (i 1).val ∧ (i 1).val < win0_3.index t (1 : Fin 3) * 16 + 16; omega
    | ⟨2, _⟩ => show win0_3.index t (2 : Fin 3) * 512 ≤ (i 2).val ∧ (i 2).val < win0_3.index t (2 : Fin 3) * 512 + 512; omega

/-- The kernel's run: every weakly fair execution terminates with the result array at the layer of the arguments
    and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KerAttn

end
-- ==== Proof.RefProj.lean ====
/-
  The reference's queries, keys and values are the three parts of the fused projection.

  The reference multiplies the batch by the fused weight, splits the 1536 output features as 3 × 8 × 64, moves
  the part to the front and the head before the position, and takes parts 0, 1 and 2.  Read at batch element `b`,
  head `hd`, position `s` and column `d`, part `c` is row `s` of the element against row `c·512 + hd·64 + d` of
  the weight.
-/
import proofs.«131995_j42855183680160_1_alg».proof.Proof.Gen.ReferenceIdeal.Read
import proofs.«131995_j42855183680160_1_alg».proof.Proof.AttentionSpec

noncomputable section

namespace Cert.RefAttn

open Cert.ReferenceIdeal Cert.ReferenceIdeal.Gen Cert.ReferenceIdeal.Read Idealize.ShloMosaic Idealize.ShloMosaic.ValueIdx

/-! ## The index maps of the layout operations, at explicit coordinates -/

/-- Dropping the leading axis of size one: the flat position `((b·8 + hd)·16 + s)·64 + d` splits back into
    `(0, b, hd, s, d)`. -/
theorem unsqueeze_q (b : Fin 4096) (hd : Fin 8) (s : Fin 16) (d : Fin 64) :
    idx_main_v4 (ix4 b hd s d) = ix5 (0 : Fin 1) b hd s d := by
  have hb := b.isLt; have hh := hd.isLt; have hs := s.isLt; have hd' := d.isLt
  funext a
  match a with
  | ⟨0, _⟩ => exact Fin.ext rfl
  | ⟨1, _⟩ => exact Fin.ext (by
      show (((b.val * 8 + hd.val) * 16 + s.val) * 64 + d.val) / 8192 % 4096 = b.val; omega)
  | ⟨2, _⟩ => exact Fin.ext (by
      show (((b.val * 8 + hd.val) * 16 + s.val) * 64 + d.val) / 1024 % 8 = hd.val; omega)
  | ⟨3, _⟩ => exact Fin.ext (by
      show (((b.val * 8 + hd.val) * 16 + s.val) * 64 + d.val) / 64 % 16 = s.val; omega)
  | ⟨4, _⟩ => exact Fin.ext (by
      show (((b.val * 8 + hd.val) * 16 + s.val) * 64 + d.val) % 64 = d.val; omega)

/-- The same for the keys' reshape. -/
theorem unsqueeze_k (b : Fin 4096) (hd : Fin 8) (s : Fin 16) (d : Fin 64) :
    idx_main_v6 (ix4 b hd s d) = ix5 (0 : Fin 1) b hd s d := unsqueeze_q b hd s d

/-- The same for the values' reshape. -/
theorem unsqueeze_v (b : Fin 4096) (hd : Fin 8) (s : Fin 16) (d : Fin 64) :
    idx_main_v8 (ix4 b hd s d) = ix5 (0 : Fin 1) b hd s d := unsqueeze_q b hd s d

/-- Slice 0 of the leading axis is part 0. -/
theorem slice_q (b : Fin 4096) (hd : Fin 8) (s : Fin 16) (d : Fin 64) :
    idx_main_v3 (ix5 (0 : Fin 1) b hd s d) = ix5 (0 : Fin 3) b hd s d := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- Slice 1 of the leading axis is part 1. -/
theorem slice_k (b : Fin 4096) (hd : Fin 8) (s : Fin 16) (d : Fin 64) :
    idx_main_v5 (ix5 (0 : Fin 1) b hd s d) = ix5 (1 : Fin 3) b hd s d := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- Slice 2 of the leading axis is part 2. -/
theorem slice_v (b : Fin 4096) (hd : Fin 8) (s : Fin 16) (d : Fin 64) :
    idx_main_v7 (ix5 (0 : Fin 1) b hd s d) = ix5 (2 : Fin 3) b hd s d := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The transposition reads (part, batch, head, position, column) at (batch, position, part, head, column). -/
theorem transpose_at (c : Fin 3) (b : Fin 4096) (hd : Fin 8) (s : Fin 16) (d : Fin 64) :
    idx_main_v2 (ix5 c b hd s d) = ix5 b s c hd d := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- Splitting the 1536 output features as 3 × 8 × 64: (part, head, column) is feature `c·512 + hd·64 + d`. -/
theorem split_at (b : Fin 4096) (s : Fin 16) (c : Fin 3) (hd : Fin 8) (d : Fin 64) :
    idx_main_v1 (ix5 b s c hd d) = ix3 b s (Cert.Attn.wrow c (Cert.Attn.col hd d)) := by
  have hb := b.isLt; have hs := s.isLt; have hc := c.isLt; have hh := hd.isLt; have hd' := d.isLt
  funext a
  match a with
  | ⟨0, _⟩ => exact Fin.ext (by
      show ((((b.val * 16 + s.val) * 3 + c.val) * 8 + hd.val) * 64 + d.val) / 24576 = b.val; omega)
  | ⟨1, _⟩ => exact Fin.ext (by
      show ((((b.val * 16 + s.val) * 3 + c.val) * 8 + hd.val) * 64 + d.val) / 1536 % 16 = s.val; omega)
  | ⟨2, _⟩ => exact Fin.ext (by
      show ((((b.val * 16 + s.val) * 3 + c.val) * 8 + hd.val) * 64 + d.val) % 1536
        = c.val * 512 + (hd.val * 64 + d.val); omega)

/-- The product's left operand at output (batch, position, feature) and contracted index `h`. -/
theorem left_at (b : Fin 4096) (s : Fin 16) (r : Fin 1536) (h : Fin 512) :
    lidx_main_v0 (ix3 b s r) h = ix3 b s h := by
  funext a
  match a with
  | ⟨0, _⟩ => exact Fin.ext rfl
  | ⟨1, _⟩ => exact Fin.ext rfl
  | ⟨2, _⟩ => exact Fin.ext rfl

/-- The product's right operand at output (batch, position, feature) and contracted index `h`. -/
theorem right_at (b : Fin 4096) (s : Fin 16) (r : Fin 1536) (h : Fin 512) :
    ridx_main_v0 (ix3 b s r) h = ix2 r h := by
  funext a
  match a with
  | ⟨0, _⟩ => exact Fin.ext rfl
  | ⟨1, _⟩ => exact Fin.ext rfl

/-- Part `c` of the split, transposed product, read at (batch, head, position, column). -/
theorem part_at (x0 : (⟨S4096x16x512, .f32⟩ : BufTy).Contents (Elt Ideal)) (x1 : (⟨S1536x512, .f32⟩ : BufTy).Contents (Elt Ideal))
    (c : Fin 3) (b : Fin 4096) (hd : Fin 8) (s : Fin 16) (d : Fin 64) :
    val_main_v2 (F := Ideal) x0 x1 (ix5 c b hd s d)
      = Cert.Attn.proj (fun s h => x0 (ix3 b s h)) (fun r h => x1 (ix2 r h)) c s (Cert.Attn.col hd d) := by
  rw [val_main_v2_apply, transpose_at, val_main_v1_apply, split_at, val_main_v0_apply]
  unfold Cert.Attn.proj
  refine Finset.sum_congr rfl fun h _ => ?_
  rw [left_at, right_at]

/-- The queries of the reference. -/
theorem ref_q (x0 : (⟨S4096x16x512, .f32⟩ : BufTy).Contents (Elt Ideal)) (x1 : (⟨S1536x512, .f32⟩ : BufTy).Contents (Elt Ideal))
    (b : Fin 4096) (hd : Fin 8) (s : Fin 16) (d : Fin 64) :
    val_main_v4 (F := Ideal) x0 x1 (ix4 b hd s d)
      = Cert.Attn.proj (fun s h => x0 (ix3 b s h)) (fun r h => x1 (ix2 r h)) 0 s (Cert.Attn.col hd d) := by
  rw [val_main_v4_apply, unsqueeze_q, val_main_v3_apply, slice_q]
  exact part_at x0 x1 0 b hd s d

/-- The keys of the reference. -/
theorem ref_k (x0 : (⟨S4096x16x512, .f32⟩ : BufTy).Contents (Elt Ideal)) (x1 : (⟨S1536x512, .f32⟩ : BufTy).Contents (Elt Ideal))
    (b : Fin 4096) (hd : Fin 8) (s : Fin 16) (d : Fin 64) :
    val_main_v6 (F := Ideal) x0 x1 (ix4 b hd s d)
      = Cert.Attn.proj (fun s h => x0 (ix3 b s h)) (fun r h => x1 (ix2 r h)) 1 s (Cert.Attn.col hd d) := by
  rw [val_main_v6_apply, unsqueeze_k, val_main_v5_apply, slice_k]
  exact part_at x0 x1 1 b hd s d

/-- The values of the reference. -/
theorem ref_v (x0 : (⟨S4096x16x512, .f32⟩ : BufTy).Contents (Elt Ideal)) (x1 : (⟨S1536x512, .f32⟩ : BufTy).Contents (Elt Ideal))
    (b : Fin 4096) (hd : Fin 8) (s : Fin 16) (d : Fin 64) :
    val_main_v8 (F := Ideal) x0 x1 (ix4 b hd s d)
      = Cert.Attn.proj (fun s h => x0 (ix3 b s h)) (fun r h => x1 (ix2 r h)) 2 s (Cert.Attn.col hd d) := by
  rw [val_main_v8_apply, unsqueeze_v, val_main_v7_apply, slice_v]
  exact part_at x0 x1 2 b hd s d

end Cert.RefAttn

end
-- ==== Proof.RefAttention.lean ====
/-
  The reference computes the attention layer.

  From its queries, keys and values (the three parts of the fused projection) the reference forms each head's
  scores divided by √64, the shifted softmax of each row, and the weighted sums of the values; it then puts the
  heads side by side (head `hd`, column `d` at feature `hd·64 + d`) and multiplies by the output weight.  Index by
  index this is `Cert.Attn.layer`.
-/
import proofs.«131995_j42855183680160_1_alg».proof.Proof.RefProj
import Idealize.ShloMosaic.PureOps.Ideal.Laws

noncomputable section

namespace Cert.RefAttn

open Cert.ReferenceIdeal Cert.ReferenceIdeal.Gen Cert.ReferenceIdeal.Read Idealize.ShloMosaic Idealize.ShloMosaic.ValueIdx

/-- Part `c` of the fused projection of batch element `b`: 0 the queries, 1 the keys, 2 the values. -/
abbrev part (x0 : (⟨S4096x16x512, .f32⟩ : BufTy).Contents (Elt Ideal)) (x1 : (⟨S1536x512, .f32⟩ : BufTy).Contents (Elt Ideal))
    (b : Fin 4096) (c : Fin 3) : Fin 16 → Fin 512 → EReal :=
  Cert.Attn.proj (fun s h => x0 (ix3 b s h)) (fun r h => x1 (ix2 r h)) c

section Head
variable (x0 : (⟨S4096x16x512, .f32⟩ : BufTy).Contents (Elt Ideal)) (x1 : (⟨S1536x512, .f32⟩ : BufTy).Contents (Elt Ideal))
  (b : Fin 4096) (hd : Fin 8)

/-- The reference's scaled scores: the dot product of a query's and a key's 64 columns, divided by √64. -/
theorem ref_score (q k : Fin 16) :
    val_main_v12 (F := Ideal) x0 x1 (ix4 b hd q k)
      = Cert.Attn.scoreOf (part x0 x1 b 0) (part x0 x1 b 1) hd q k := by
  rw [val_main_v12_apply, val_main_v9_apply, val_main_v11_apply, val_main_v10_apply, val_main_cst_apply]
  rw [Ideal.hostDivf_def, Ideal.hostUnary_sqrt_def, Ideal.ofBits_def, Cert.Attn.div_sqrt_64]
  unfold Cert.Attn.scoreOf
  refine congrArg (· * Cert.Attn.eighth) (Finset.sum_congr rfl fun d _ => ?_)
  have el : lidx_main_v9 (ix4 b hd q k) d = ix4 b hd q d := funext fun a => by
    match a with
    | ⟨0, _⟩ => rfl
    | ⟨1, _⟩ => rfl
    | ⟨2, _⟩ => rfl
    | ⟨3, _⟩ => rfl
  have er : ridx_main_v9 (ix4 b hd q k) d = ix4 b hd k d := funext fun a => by
    match a with
    | ⟨0, _⟩ => rfl
    | ⟨1, _⟩ => rfl
    | ⟨2, _⟩ => rfl
    | ⟨3, _⟩ => rfl
  rw [el, er, ref_q, ref_k]

/-- The reference's row maximum: the fold of `max` from −∞ over the row's 16 scores, then `max` against −∞ once more. -/
theorem ref_rowMax (q : Fin 16) :
    val_main_v15 (F := Ideal) x0 x1 (ix3 b hd q)
      = Cert.Attn.rowMaxOf (part x0 x1 b 0) (part x0 x1 b 1) hd q := by
  rw [val_main_v15_apply, val_main_v14_apply, val_main_cst_1_apply]
  unfold val_main_v13
  have hfold := Host.reduce_eq_fold_single (FloatOps.maximumf (F := Ideal) (φ := .f32)) (val_main_v12 (F := Ideal) x0 x1)
    (val_main_cst_0 (F := Ideal)) reducesTo_S4096x8x16x16_S4096x8x16_d3
    (by decide : S4096x8x16x16.Reduces [3] S4096x8x16) h_S_ (ix3 b hd q)
  rw [hfold]
  rw [val_main_cst_0_apply]
  unfold Cert.Attn.rowMaxOf
  refine congrArg (max Cert.Attn.negInf) ?_
  refine Finset.fold_congr fun (k : Fin 16) _ => ?_
  show val_main_v12 (F := Ideal) x0 x1 _ = _
  have e : (by decide : S4096x8x16x16.Reduces [3] S4096x8x16).lift (ix3 b hd q) k = ix4 b hd q k := funext fun a => by
    match a with
    | ⟨0, _⟩ => rfl
    | ⟨1, _⟩ => rfl
    | ⟨2, _⟩ => rfl
    | ⟨3, _⟩ => rfl
  rw [e, ref_score]

/-- The reference's shifted exponentials: the score minus its row's maximum, exponentiated. -/
theorem ref_exp (q k : Fin 16) :
    val_main_v19 (F := Ideal) x0 x1 (ix4 b hd q k)
      = Cert.Attn.expOf (part x0 x1 b 0) (part x0 x1 b 1) hd q k := by
  rw [val_main_v19_apply, val_main_v18_apply, val_main_v17_apply, val_main_v16_apply]
  have e : idx_main_v16 (idx_main_v17 (ix4 b hd q k)) = ix3 b hd q := funext fun a => by
    match a with
    | ⟨0, _⟩ => rfl
    | ⟨1, _⟩ => rfl
    | ⟨2, _⟩ => rfl
  rw [e, ref_rowMax, ref_score, Ideal.hostUnary_exp_def, Ideal.subf_def]
  rfl

/-- The reference's row sums of the shifted exponentials (the sum starts from the zero word). -/
theorem ref_den (q : Fin 16) :
    val_main_v20 (F := Ideal) x0 x1 (ix3 b hd q)
      = Cert.Attn.denOf (part x0 x1 b 0) (part x0 x1 b 1) hd q := by
  rw [val_main_v20_apply, val_main_cst_2_apply, Ideal.ofBits_def, Ideal.ofBits_zero_f32, zero_add]
  unfold Cert.Attn.denOf
  refine Finset.sum_congr rfl fun k _ => ?_
  have e : idx_main_v20 (ix3 b hd q) k = ix4 b hd q k := funext fun a => by
    match a with
    | ⟨0, _⟩ => rfl
    | ⟨1, _⟩ => rfl
    | ⟨2, _⟩ => rfl
    | ⟨3, _⟩ => rfl
  rw [e, ref_exp]

/-- The reference's softmax weights: a shifted exponential over its row's sum. -/
theorem ref_prob (q k : Fin 16) :
    val_main_v23 (F := Ideal) x0 x1 (ix4 b hd q k)
      = Cert.Attn.probOf (part x0 x1 b 0) (part x0 x1 b 1) hd q k := by
  rw [val_main_v23_apply, val_main_v22_apply, val_main_v21_apply]
  have e : idx_main_v21 (idx_main_v22 (ix4 b hd q k)) = ix3 b hd q := funext fun a => by
    match a with
    | ⟨0, _⟩ => rfl
    | ⟨1, _⟩ => rfl
    | ⟨2, _⟩ => rfl
  rw [e, ref_den, ref_exp, Ideal.hostDivf_def]
  rfl

end Head

/-- A head's output in the reference: at batch element `b`, head `hd`, position `q`, column `d`. -/
theorem ref_mix (x0 : (⟨S4096x16x512, .f32⟩ : BufTy).Contents (Elt Ideal)) (x1 : (⟨S1536x512, .f32⟩ : BufTy).Contents (Elt Ideal))
    (b : Fin 4096) (hd : Fin 8) (q : Fin 16) (d : Fin 64) :
    val_main_v24 (F := Ideal) x0 x1 (ix4 b hd q d)
      = Cert.Attn.mixAt (Cert.Attn.proj (fun s h => x0 (ix3 b s h)) (fun r h => x1 (ix2 r h)) 0)
          (Cert.Attn.proj (fun s h => x0 (ix3 b s h)) (fun r h => x1 (ix2 r h)) 1)
          (Cert.Attn.proj (fun s h => x0 (ix3 b s h)) (fun r h => x1 (ix2 r h)) 2) hd q (Cert.Attn.col hd d) := by
  rw [val_main_v24_apply]
  unfold Cert.Attn.mixAt
  refine Finset.sum_congr rfl fun k _ => ?_
  have el : lidx_main_v24 (ix4 b hd q d) k = ix4 b hd q k := funext fun a => by
    match a with
    | ⟨0, _⟩ => rfl
    | ⟨1, _⟩ => rfl
    | ⟨2, _⟩ => rfl
    | ⟨3, _⟩ => rfl
  have er : ridx_main_v24 (ix4 b hd q d) k = ix4 b hd k d := funext fun a => by
    match a with
    | ⟨0, _⟩ => rfl
    | ⟨1, _⟩ => rfl
    | ⟨2, _⟩ => rfl
    | ⟨3, _⟩ => rfl
  rw [el, er, ref_prob, ref_v]

/-- The reference's result is the attention layer of its three arguments. -/
theorem ref_eq (x0 : (⟨S4096x16x512, .f32⟩ : BufTy).Contents (Elt Ideal)) (x1 : (⟨S1536x512, .f32⟩ : BufTy).Contents (Elt Ideal))
    (x2 : (⟨S512x512, .f32⟩ : BufTy).Contents (Elt Ideal)) :
    val_main_v27 (F := Ideal) x0 x1 x2 = Cert.Attn.layer x0 x1 x2 := by
  funext i
  obtain ⟨b, s, o, rfl⟩ : ∃ b s o, i = ix3 b s o := ⟨i 0, i 1, i 2, eq_ix3 i⟩
  rw [val_main_v27_apply]
  show _ = Cert.Attn.out (fun s h => x0 (ix3 b s h)) (fun r h => x1 (ix2 r h)) (fun o j => x2 (ix2 o j)) s o
  unfold Cert.Attn.out
  refine Finset.sum_congr rfl fun j _ => ?_
  rw [val_main_v26_apply, val_main_v25_apply]
  have e : idx_main_v25 (idx_main_v26 (lidx_main_v27 (ix3 b s o) j))
      = ix4 b (Cert.Attn.headOf j) s (Cert.Attn.within j) := funext fun a => Fin.ext (by
    have hb := b.isLt; have hs := s.isLt; have hj := j.isLt
    match a with
    | ⟨0, _⟩ => show ((b.val * 16 + s.val) * 512 + j.val) / 8192 = b.val; omega
    | ⟨1, _⟩ => show ((b.val * 16 + s.val) * 512 + j.val) / 64 % 8 = j.val / 64; omega
    | ⟨2, _⟩ => show ((b.val * 16 + s.val) * 512 + j.val) / 512 % 16 = s.val; omega
    | ⟨3, _⟩ => show ((b.val * 16 + s.val) * 512 + j.val) % 64 = j.val % 64; omega)
  have er : ridx_main_v27 (ix3 b s o) j = ix2 o j := funext fun a => by
    match a with
    | ⟨0, _⟩ => rfl
    | ⟨1, _⟩ => rfl
  rw [e, er, ref_mix, Cert.Attn.col_headOf_within]

end Cert.RefAttn

end
-- ==== Proof.lean ====
/-
  Fused self-attention over 4096 batch elements of 16 positions × 512 features: the kernel against its reference.

  Both programs compute, for every batch element on its own, the three parts of the fused projection `x · wᵀ`
  (queries, keys, values), for each of the 8 heads of 64 columns the scores `q · kᵀ` scaled by 1/√64, the shifted
  softmax of each row of scores, the weighted sum of the values, and, with the heads side by side, the product with
  the transpose of the output weight (`Cert.Attn.layer`, Proof/AttentionSpec.lean).  The kernel works block by
  block of 128 batch elements, with the heads unrolled, on operands narrowed to a 16-bit float format (the identity
  over the extended reals), and scales by the constant 1/8; the reference works on whole arrays and divides by
  √64.  On every extended real `y / √64 = y · (1/8)`, every sum is a finite sum in a commutative monoid, and a
  tiling or an unrolling does not change which terms a sum has: so the two results are one function of the
  arguments, with no finiteness used.

  The kernel's side: Proof/KernelProj.lean (projections), Proof/KernelHead.lean (a head), Proof/KernelBlock.lean
  (a block), Proof/KernelFinal.lean (the 32 blocks tile the result).  The reference's side: Proof/RefProj.lean and
  Proof/RefAttention.lean.  The three frames are the generated ones (the reference's from its generated run);
  the idealization rewrote nothing, so `preserves` is trivial.
-/
import proofs.«131995_j42855183680160_1_alg».proof.Defs
import proofs.«131995_j42855183680160_1_alg».proof.Proof.Gen.Kernel
import proofs.«131995_j42855183680160_1_alg».proof.Proof.Gen.Kernel.Frame
import proofs.«131995_j42855183680160_1_alg».proof.Proof.Gen.KernelIdeal
import proofs.«131995_j42855183680160_1_alg».proof.Proof.Gen.KernelIdeal.Frame
import proofs.«131995_j42855183680160_1_alg».proof.Proof.Gen.KernelIdeal.Value
import proofs.«131995_j42855183680160_1_alg».proof.Proof.Gen.ReferenceIdeal
import proofs.«131995_j42855183680160_1_alg».proof.Proof.Gen.ReferenceIdeal.Run
import proofs.«131995_j42855183680160_1_alg».proof.Proof.Gen.ReferenceIdeal.Read
import proofs.«131995_j42855183680160_1_alg».proof.Proof.Gen.Pre_finite_inputs
import proofs.«131995_j42855183680160_1_alg».proof.Proof.KernelFinal
import proofs.«131995_j42855183680160_1_alg».proof.Proof.RefAttention

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the attention layer of the (agreeing) arguments in their result arrays. -/
theorem algebraic : Cert.algebraic_KernelIdeal_ReferenceIdeal := by
  intro m ρ m' ρ' _ hagree
  refine ⟨fun c => Cert.KerAttn.result m c, Cert.KerAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefAttn.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
